-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x768 : Shape := ⟨3, ![64, 1024, 768]⟩
abbrev S768 : Shape := ⟨1, ![768]⟩
abbrev S1025x768 : Shape := ⟨2, ![1025, 768]⟩
abbrev S_ : Shape := ⟨0, ![]⟩

class Facts : Prop where
  bcast_S_S64x1024x768 : S_.BroadcastsInDim S64x1024x768 (![] : Fin 0 → Fin S64x1024x768.rank)
  reducesTo_S64x1024x768_S_d0_1_2 : S64x1024x768.ReducesTo [0, 1, 2] S_
  h_S_ : 0 < S_.numel
  bcast_S_S768 : S_.BroadcastsInDim S768 (![] : Fin 0 → Fin S768.rank)
  reducesTo_S768_S_d0 : S768.ReducesTo [0] S_
  bcast_S_S1025x768 : S_.BroadcastsInDim S1025x768 (![] : Fin 0 → Fin S1025x768.rank)
  reducesTo_S1025x768_S_d0_1 : S1025x768.ReducesTo [0, 1] S_

variable [Facts]

def fn {F : FTy → Type} [FloatOps F] (main_arg0 : FVec F S64x1024x768 .f32) (main_arg1 : FVec F S768 .f32) (main_arg2 : FVec F S1025x768 .f32) : IVec S_ 1 :=
  let main_v0 : FVec F S64x1024x768 .f32 := Host.absf main_arg0
  let main_cst : FVec F S_ .f32 := constant S_ .f32 0x7F800000#32
  let main_v1 : FVec F S64x1024x768 .f32 := broadcastInDim S64x1024x768 ![] bcast_S_S64x1024x768 main_cst
  let main_v2 : IVec S64x1024x768 1 := cmpf .olt main_v0 main_v1
  let main_c : IVec S_ 1 := constantI S_ 1 1#1
  let main_v3 : IVec S_ 1 := (fun x v => Host.reduce IntOp.andi x v reducesTo_S64x1024x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S1025x768 .f32 := Host.absf main_arg2
  let main_cst_2 : FVec F S_ .f32 := constant S_ .f32 0x7F800000#32
  let main_v10 : FVec F S1025x768 .f32 := broadcastInDim S1025x768 ![] bcast_S_S1025x768 main_cst_2
  let main_v11 : IVec S1025x768 1 := cmpf .olt main_v9 main_v10
  let main_c_3 : IVec S_ 1 := constantI S_ 1 1#1
  let main_v12 : IVec S_ 1 := (fun x v => Host.reduce IntOp.andi x v reducesTo_S1025x768_S_d0_1 h_S_) main_v11 main_c_3
  let main_v13 : IVec S_ 1 := andi main_v8 main_v12
  main_v13
-- ==== Kernel.lean ====
abbrev S64x1024x768 : Shape := ⟨3, ![64, 1024, 768]⟩
abbrev S768 : Shape := ⟨1, ![768]⟩
abbrev S1025x768 : Shape := ⟨2, ![1025, 768]⟩
abbrev S1x768 : Shape := ⟨2, ![1, 768]⟩
abbrev S64x1025x768 : Shape := ⟨3, ![64, 1025, 768]⟩
abbrev S2x1024x768 : Shape := ⟨3, ![2, 1024, 768]⟩
abbrev S2x1025x768 : Shape := ⟨3, ![2, 1025, 768]⟩
abbrev S1x1x768 : Shape := ⟨3, ![1, 1, 768]⟩
abbrev S2x1x768 : Shape := ⟨3, ![2, 1, 768]⟩
abbrev S1024x768 : Shape := ⟨2, ![1024, 768]⟩
abbrev S1x1024x768 : Shape := ⟨3, ![1, 1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S64x1024x768, .f32⟩
  | .hbm, ⟨1, _⟩ => ⟨S768, .f32⟩
  | .hbm, ⟨2, _⟩ => ⟨S1025x768, .f32⟩
  | .hbm, ⟨3, _⟩ => ⟨S1x768, .f32⟩
  | .hbm, ⟨4, _⟩ => ⟨S64x1025x768, .f32⟩
  | .local _ .vmem, ⟨0, _⟩ => ⟨S2x1024x768, .f32⟩
  | .local _ .vmem, ⟨1, _⟩ => ⟨S2x1024x768, .f32⟩
  | .local _ .vmem, ⟨2, _⟩ => ⟨S1x768, .f32⟩
  | .local _ .vmem, ⟨3, _⟩ => ⟨S1025x768, .f32⟩
  | .local _ .vmem, ⟨4, _⟩ => ⟨S2x1025x768, .f32⟩
  | .local _ .vmem, ⟨5, _⟩ => ⟨S2x1025x768, .f32⟩
  | _, _ => ⟨S64x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1025x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1025x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S768_S1x768 : S768.ShapeCasts S1x768
  inb_S1025x768_S1x768_0_0 : ∀ a, (![0, 0] : Fin 2 → Nat) a + S1x768.size a ≤ S1025x768.size a
  h_S1x768 : 0 < S1x768.numel
  inb_S1x768_S1x768_0_0 : ∀ a, (![0, 0] : Fin 2 → Nat) a + S1x768.size a ≤ S1x768.size a
  shapeCasts_S1x768_S1x768 : S1x768.ShapeCasts S1x768
  shapeCasts_S1x768_S1x1x768 : S1x768.ShapeCasts S1x1x768
  shapeCasts_S1x1x768_S1x1x768 : S1x1x768.ShapeCasts S1x1x768
  broadcasts_S1x1x768_S2x1x768 : S1x1x768.Broadcasts S2x1x768
  inb_S2x1025x768_S2x1x768_0_0_0 : ∀ a, (![0, 0, 0] : Fin 3 → Nat) a + S2x1x768.size a ≤ S2x1025x768.size a
  h_S2x1x768 : 0 < S2x1x768.numel
  inb_S1025x768_S1024x768_1_0 : ∀ a, (![1, 0] : Fin 2 → Nat) a + S1024x768.size a ≤ S1025x768.size a
  h_S1024x768 : 0 < S1024x768.numel
  inb_S2x1024x768_S2x1024x768_0_0_0 : ∀ a, (![0, 0, 0] : Fin 3 → Nat) a + S2x1024x768.size a ≤ S2x1024x768.size a
  h_S2x1024x768 : 0 < S2x1024x768.numel
  shapeCasts_S1024x768_S1x1024x768 : S1024x768.ShapeCasts S1x1024x768
  broadcasts_S1x1024x768_S2x1024x768 : S1x1024x768.Broadcasts S2x1024x768
  inb_S2x1025x768_S2x1024x768_0_1_0 : ∀ a, (![0, 1, 0] : Fin 3 → Nat) a + S2x1024x768.size a ≤ S2x1025x768.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x768.size a ≤ S64x1024x768.size a
  hwx0_0 : ∀ i : grid0.Coords, EltTy.bits .f32 = 32 ∨ (Rect.block (s := S64x1024x768) S2x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1025x768.size a ≤ S1025x768.size a
  hwx0_2 : ∀ i : grid0.Coords, EltTy.bits .f32 = 32 ∨ (Rect.block (s := S1025x768) S1025x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1025x768.size a ≤ S64x1025x768.size a
  hwx0_3 : ∀ i : grid0.Coords, EltTy.bits .f32 = 32 ∨ (Rect.block (s := S64x1025x768) S2x1025x768.size (cc0_transform_3 i) (hinb0_3 i)).WholeWords (EltTy.packing .f32)

variable [Facts₀]

abbrev win0_0 : Pipeline.Window sig grid0 :=
  Pipeline.Window.ofSpec (Memref.whole main_arg0) S2x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1025x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x1025x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x768 : Shape := ⟨3, ![64, 1024, 768]⟩
abbrev S768 : Shape := ⟨1, ![768]⟩
abbrev S1025x768 : Shape := ⟨2, ![1025, 768]⟩
abbrev S1x1x768 : Shape := ⟨3, ![1, 1, 768]⟩
abbrev S64x1x768 : Shape := ⟨3, ![64, 1, 768]⟩
abbrev S64x1025x768 : Shape := ⟨3, ![64, 1025, 768]⟩
abbrev S1x1025x768 : Shape := ⟨3, ![1, 1025, 768]⟩

abbrev nBuf : Space → Nat
  | .hbm => 9
  | .vmem => 0
  | .smem => 0
  | _ => 0

abbrev bufTy : (tb : Table) → Fin (tcTables nBuf tb) → BufTy
  | .hbm, ⟨0, _⟩ => ⟨S64x1024x768, .f32⟩
  | .hbm, ⟨1, _⟩ => ⟨S768, .f32⟩
  | .hbm, ⟨2, _⟩ => ⟨S1025x768, .f32⟩
  | .hbm, ⟨3, _⟩ => ⟨S1x1x768, .f32⟩
  | .hbm, ⟨4, _⟩ => ⟨S64x1x768, .f32⟩
  | .hbm, ⟨5, _⟩ => ⟨S64x1025x768, .f32⟩
  | .hbm, ⟨6, _⟩ => ⟨S1x1025x768, .f32⟩
  | .hbm, ⟨7, _⟩ => ⟨S64x1025x768, .f32⟩
  | .hbm, ⟨8, _⟩ => ⟨S64x1025x768, .f32⟩
  | _, _ => ⟨S64x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S64x1x768_0_1_2 : S1x1x768.BroadcastsInDim S64x1x768 (![0, 1, 2] : Fin 3 → Fin S64x1x768.rank)
  concatenates_S64x1x768_S64x1024x768_S64x1025x768_d1 : Shape.Concatenates [S64x1x768, S64x1024x768] S64x1025x768 1
  bcast_S1025x768_S1x1025x768_1_2 : S1025x768.BroadcastsInDim S1x1025x768 (![1, 2] : Fin 2 → Fin S1x1025x768.rank)
  bcast_S1x1025x768_S64x1025x768_0_1_2 : S1x1025x768.BroadcastsInDim S64x1025x768 (![0, 1, 2] : Fin 3 → Fin S64x1025x768.rank)

variable [Facts₀]

class Facts : Prop extends Facts₀ where

variable [Facts]
-- ==== Proof.PosEmbedSpec.lean ====
/-
  The position-embedding sum as one function of its three arrays, index by index.

  A batch of `B` sequences of 1024 feature rows is given a class-token row in front (the same 768 features for
  every sequence), and the table of 1025 position rows is added to every sequence:

      result[b, 0, d]     = cls[d]        + emb[0, d]
      result[b, r + 1, d] = x[b, r, d]    + emb[r + 1, d]

  The sum is one float addition per entry, with the token on the left and the position row on the right, so the
  function is stated for any float instance; nothing about the numbers is used.  The batch extent is a parameter:
  a block of two sequences of a 64-sequence array is the same function at `B = 2` of the two input sequences
  (`result_block`).
-/
import Idealize.ShloMosaic.PureOps
import Idealize.ShloMosaic.Lib.ValueIdx

noncomputable section

namespace Cert.PosEmbed

open Idealize.ShloMosaic Idealize.ShloMosaic.ValueIdx

variable {F : FTy → Type} [FloatOps F]

/-- Row `r` of sequence `b` once the class token is put in front: the class token for `r = 0`, input row `r - 1`
    otherwise. -/
def tokenAt {B : Nat} (x : (⟨3, ![B, 1024, 768]⟩ : Shape).Idx → Elt F .f32) (cls : Fin 768 → Elt F .f32)
    (b : Fin B) (r : Fin 1025) (d : Fin 768) : Elt F .f32 :=
  if h : r.val = 0 then cls d else x (ix3 b ⟨r.val - 1, by have := r.isLt; omega⟩ d)

theorem tokenAt_zero {B : Nat} (x : (⟨3, ![B, 1024, 768]⟩ : Shape).Idx → Elt F .f32) (cls : Fin 768 → Elt F .f32)
    (b : Fin B) (r : Fin 1025) (d : Fin 768) (h : r.val = 0) : tokenAt x cls b r d = cls d := by
  unfold tokenAt; rw [dif_pos h]

theorem tokenAt_succ {B : Nat} (x : (⟨3, ![B, 1024, 768]⟩ : Shape).Idx → Elt F .f32) (cls : Fin 768 → Elt F .f32)
    (b : Fin B) (r : Fin 1025) (d : Fin 768) (n : Fin 1024) (h : r.val = n.val + 1) :
    tokenAt x cls b r d = x (ix3 b n d) := by
  unfold tokenAt
  rw [dif_neg (by omega)]
  exact congrArg x (congrArg (fun k => ix3 b k d) (Fin.ext (by show r.val - 1 = n.val; omega)))

/-- The whole result: at `(b, r, d)` the token row plus position row `r`. -/
def result {B : Nat} (x : (⟨3, ![B, 1024, 768]⟩ : Shape).Idx → Elt F .f32) (cls : Fin 768 → Elt F .f32)
    (emb : (⟨2, ![1025, 768]⟩ : Shape).Idx → Elt F .f32) : (⟨3, ![B, 1025, 768]⟩ : Shape).Idx → Elt F .f32 :=
  fun i => FloatOps.addf (tokenAt x cls (i 0) (i 1) (i 2)) (emb (ix2 (i 1) (i 2)))

theorem result_apply {B : Nat} (x : (⟨3, ![B, 1024, 768]⟩ : Shape).Idx → Elt F .f32) (cls : Fin 768 → Elt F .f32)
    (emb : (⟨2, ![1025, 768]⟩ : Shape).Idx → Elt F .f32) (b : Fin B) (r : Fin 1025) (d : Fin 768) :
    result x cls emb (ix3 b r d) = FloatOps.addf (tokenAt x cls b r d) (emb (ix2 r d)) := rfl

/-- A block of sequences is the same function of the block's input sequences: if `x'` holds sequences
    `o, o + 1, …` of `x`, then the result of `x'` at `(b', r, d)` is the result of `x` at `(o + b', r, d)`. -/
theorem result_block {B B' : Nat} (x : (⟨3, ![B, 1024, 768]⟩ : Shape).Idx → Elt F .f32)
    (x' : (⟨3, ![B', 1024, 768]⟩ : Shape).Idx → Elt F .f32) (cls : Fin 768 → Elt F .f32)
    (emb : (⟨2, ![1025, 768]⟩ : Shape).Idx → Elt F .f32) (b : Fin B) (b' : Fin B')
    (hx : ∀ (n : Fin 1024) (d : Fin 768), x' (ix3 b' n d) = x (ix3 b n d)) (r : Fin 1025) (d : Fin 768) :
    result x' cls emb (ix3 b' r d) = result x cls emb (ix3 b r d) := by
  rw [result_apply, result_apply]
  congr 1
  by_cases h : r.val = 0
  · rw [tokenAt_zero x' cls b' r d h, tokenAt_zero x cls b r d h]
  · have hr := r.isLt
    have hn : r.val = (⟨r.val - 1, by omega⟩ : Fin 1024).val + 1 := by show r.val = r.val - 1 + 1; omega
    rw [tokenAt_succ x' cls b' r d _ hn, tokenAt_succ x cls b r d _ hn]
    exact hx _ d

end Cert.PosEmbed

end
-- ==== Proof.LibBatchRows.lean ====
/-
  General reading lemmas for rank-3 arrays `[batch, rows, features]`, over any extents: one `[1, a, b]` slab
  broadcast over a leading batch axis, and two arrays joined along the row axis, each read at an index written by
  its three coordinates.
-/
import Idealize.ShloMosaic.Lib.ValueLayout
import Idealize.ShloMosaic.Lib.Pipeline.Value

noncomputable section

namespace Cert.LibBatchRows

open Idealize.ShloMosaic Idealize.ShloMosaic.ValueIdx

variable {α : Type}

/-- A `[1, a, b]` array broadcast to `[n, a, b]` reads, at `(p, i, j)`, the operand's one slab at `(i, j)`. -/
theorem broadcastTo_1ab_nab_apply {n a b : ℕ} (v : (⟨3, ![1, a, b]⟩ : Shape).Idx → α)
    (h : (⟨3, ![1, a, b]⟩ : Shape).Broadcasts ⟨3, ![n, a, b]⟩) (p : Fin n) (i : Fin a) (j : Fin b) :
    broadcastTo ⟨3, ![n, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- `[n, a₁, c]` and `[n, a₂, c]` joined along the row axis, read at a row of the FIRST array. -/
theorem concatenate_rows_apply_left {n a₁ a₂ a c : ℕ} (x₁ : (⟨3, ![n, a₁, c]⟩ : Shape).Idx → α)
    (x₂ : (⟨3, ![n, a₂, c]⟩ : Shape).Idx → α)
    (h : Shape.Concatenates [⟨3, ![n, a₁, c]⟩, ⟨3, ![n, a₂, c]⟩] ⟨3, ![n, a, c]⟩ 1)
    (p : Fin n) (r : Fin a) (q : Fin c) (r₁ : Fin a₁) (hr : r₁.val = r.val) :
    concatenate ⟨3, ![n, a, c]⟩ 1 [⟨⟨3, ![n, a₁, c]⟩, x₁⟩, ⟨⟨3, ![n, a₂, c]⟩, x₂⟩] h (ix3 p r q) = x₁ (ix3 p r₁ q) := by
  refine concatenate_pair_apply_left 1 x₁ x₂ h (ix3 p r q) rfl (ix3 p r₁ q) fun ax => ?_
  match ax with
  | ⟨0, _⟩ => rfl
  | ⟨1, _⟩ => exact hr
  | ⟨2, _⟩ => rfl

/-- The same join read at a row of the SECOND array: row `r` of the result is its row `r - a₁`. -/
theorem concatenate_rows_apply_right {n a₁ a₂ a c : ℕ} (x₁ : (⟨3, ![n, a₁, c]⟩ : Shape).Idx → α)
    (x₂ : (⟨3, ![n, a₂, c]⟩ : Shape).Idx → α)
    (h : Shape.Concatenates [⟨3, ![n, a₁, c]⟩, ⟨3, ![n, a₂, c]⟩] ⟨3, ![n, a, c]⟩ 1)
    (p : Fin n) (r : Fin a) (q : Fin c) (r₂ : Fin a₂) (hr : r₂.val + a₁ = r.val) :
    concatenate ⟨3, ![n, a, c]⟩ 1 [⟨⟨3, ![n, a₁, c]⟩, x₁⟩, ⟨⟨3, ![n, a₂, c]⟩, x₂⟩] h (ix3 p r q) = x₂ (ix3 p r₂ q) := by
  refine concatenate_pair_apply_right 1 x₁ x₂ h (ix3 p r q) rfl rfl (ix3 p r₂ q) (fun ax hax => ?_) hr
  match ax with
  | ⟨0, _⟩ => rfl
  | ⟨1, _⟩ => exact absurd rfl hax
  | ⟨2, _⟩ => rfl

end Cert.LibBatchRows

end
-- ==== Proof.Body.lean ====
/-
  What the kernel body leaves in its output block, as the position-embedding sum of the block's inputs.

  The body makes two stores into its `[2, 1025, 768]` output block: row 0 of both sequences takes the class
  token plus position row 0 (one `[1, 768]` sum broadcast over the two sequences), and rows 1 … 1024 take the
  two input sequences plus position rows 1 … 1024 (the `[1024, 768]` rows broadcast over the two sequences).
  Each store's payload, read at an index of its rectangle, is `PosEmbed.result` at `B = 2` there; the two
  rectangles cover the block; so the block after the body is that function (`out_block`).
-/
import proofs.«102256_j51196010168778_1_alg».proof.Proof.Gen.KernelIdeal.Frame
import proofs.«102256_j51196010168778_1_alg».proof.Proof.PosEmbedSpec
import proofs.«102256_j51196010168778_1_alg».proof.Proof.LibBatchRows
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.PosEmbed Cert.LibBatchRows

variable {F : FTy → Type} [FloatOps F]

/-- The class-token store's payload at `(b, u, d)`: the class token's feature `d` plus position row 0's. -/
theorem pay_cls_apply (emb0 cls : Vec F S1x768 .f32) (b : Fin 2) (u : Fin 1) (d : Fin 768) :
    k0_pay1 emb0 cls (ix3 b u d) = FloatOps.addf (cls (ix2 (0 : Fin 1) d)) (emb0 (ix2 (0 : Fin 1) d)) := by
  obtain rfl : u = 0 := Subsingleton.elim _ _
  unfold k0_pay1
  rw [broadcastTo_1ab_nab_apply, shapeCast_self, shapeCast_ab_1ab_apply, shapeCast_self]
  rfl

/-- The sequence store's payload at `(b, n, d)`: input row `n` of sequence `b` plus position row `n + 1` (the rows
    the body loaded from row 1 on, at `n`). -/
theorem pay_rows_apply (embRows : Vec F S1024x768 .f32) (x : Vec F S2x1024x768 .f32) (b : Fin 2) (n : Fin 1024) (d : Fin 768) :
    k0_pay2 embRows x (ix3 b n d) = FloatOps.addf (x (ix3 b n d)) (embRows (ix2 n d)) := by
  unfold k0_pay2
  show FloatOps.addf (x (ix3 b n d)) (broadcastTo S2x1024x768 (shapeCast S1x1024x768 embRows _) _ (ix3 b n d)) = _
  rw [broadcastTo_1ab_nab_apply, shapeCast_ab_1ab_apply]

theorem zeros3 : (![0, 0, 0] : Fin 3 → Nat) = fun _ => 0 := funext fun a => by fin_cases a <;> rfl

theorem zeros2 : (![0, 0] : Fin 2 → Nat) = fun _ => 0 := funext fun a => by fin_cases a <;> rfl

/-- The sequence store's rectangle starts at row 1 of the block: its `(b, n, d)` is the block's `(b, n + 1, d)`. -/
theorem rows_emb (inb) (b : Fin 2) (n : Fin 1024) (d : Fin 768) :
    (Rect.unit (s := S2x1025x768) ![0, 1, 0] ![2, 1024, 768] inb).emb (ix3 b n d)
      = ix3 b (⟨n.val + 1, by have := n.isLt; omega⟩ : Fin 1025) d := by
  funext a; apply Fin.ext
  match a with
  | ⟨0, _⟩ => show 0 + 1 * b.val = b.val; omega
  | ⟨1, _⟩ => show 1 + 1 * n.val = n.val + 1; omega
  | ⟨2, _⟩ => show 0 + 1 * d.val = d.val; omega

/-- The class-token store's rectangle is row 0 of the block. -/
theorem cls_emb (inb) (b : Fin 2) (u : Fin 1) (d : Fin 768) :
    (Rect.unit (s := S2x1025x768) ![0, 0, 0] ![2, 1, 768] inb).emb (ix3 b u d) = ix3 b (0 : Fin 1025) d := by
  have hu : u.val = 0 := by omega
  funext a; apply Fin.ext
  match a with
  | ⟨0, _⟩ => show 0 + 1 * b.val = b.val; omega
  | ⟨1, _⟩ => show 0 + 1 * u.val = 0; omega
  | ⟨2, _⟩ => show 0 + 1 * d.val = d.val; omega

/-- The position rows the body loads from row 1 on: row `n` of the load is row `n + 1` of the table. -/
theorem embRows_idx (inb) (n : Fin 1024) (d : Fin 768) :
    (Rect.unit (s := S1025x768) ![1, 0] ![1024, 768] inb).toLoadRect.idx (ix2 n d)
      = ix2 (⟨n.val + 1, by have := n.isLt; omega⟩ : Fin 1025) d := by
  funext a; apply Fin.ext
  match a with
  | ⟨0, _⟩ => show 1 + 1 * n.val = n.val + 1; omega
  | ⟨1, _⟩ => show 0 + 1 * d.val = d.val; omega

/-- Position row 0 as the body loads it: a `[1, 768]` rectangle at the table's origin. -/
theorem emb0_idx (inb) (d : Fin 768) :
    (Rect.unit (s := S1025x768) ![0, 0] ![1, 768] inb).toLoadRect.idx (ix2 (0 : Fin 1) d) = ix2 (0 : Fin 1025) d := by
  funext a; apply Fin.ext
  match a with
  | ⟨0, _⟩ => rfl
  | ⟨1, _⟩ => show 0 + 1 * d.val = d.val; omega

/-- AFTER THE BODY the output block is the position-embedding sum of the block's inputs: of the two input
    sequences `x0`, the class token's one row `x1` and the position table `x2`. Both stores' payloads are that
    function on their rectangles, and the rectangles cover the block. -/
theorem out_block (c : Dev nD) (i : grid0.Coords) (a1 : Memref sig .tc .vmem S2x1024x768 .f32) (h1 : a1.IsWhole)
    (a2 : Memref sig .tc .vmem S1x768 .f32) (h2 : a2.IsWhole) (a3 : Memref sig .tc .vmem S1025x768 .f32) (h3 : a3.IsWhole)
    (a4 : Memref sig .tc .vmem S2x1025x768 .f32) (h4 : a4.IsWhole)
    (x0 : Vec F S2x1024x768 .f32) (x1 : Vec F S1x768 .f32) (x2 : Vec F S1025x768 .f32) :
    out0_A_3 c i a1 h1 a2 h2 a3 h3 a4 h4 x0 x1 x2 = result x0 (fun d => x1 (ix2 (0 : Fin 1) d)) x2 := by
  unfold out0_A_3
  rw [View.read_writes_eq_canon _ _ _ (cover0_A_3 c i a1 h1 a2 h2 a3 h3 a4 h4 x0 x1 x2)]
  funext y
  refine View.canon_apply_of_pieces (result x0 (fun d => x1 (ix2 (0 : Fin 1) d)) x2) _ ?_ y
    (cover0_A_3 c i a1 h1 a2 h2 a3 h3 a4 h4 x0 x1 x2 y)
  unfold kernelRun0_A
  dsimp only
  sl_unfold_words
  simp only [View.readAt_eq_ld, h1.read_unread, h2.read_unread, h3.read_unread]
  intro p hp x
  rcases List.mem_cons.mp hp with rfl | hp
  · -- rows 1 … 1024: the input sequences plus position rows 1 … 1024
    obtain ⟨b, n, d, rfl⟩ : ∃ (b : Fin 2) (n : Fin 1024) (d : Fin 768), x = ix3 b n d := ⟨x 0, x 1, x 2, eq_ix3 x⟩
    show k0_pay2 _ _ (ix3 b n d) = _
    rw [pay_rows_apply, rows_emb, result_apply, tokenAt_succ x0 _ b _ d n rfl, View.ld_unit_zero (S := S2x1024x768) zeros3]
    show FloatOps.addf _ (x2 ((Rect.unit (s := S1025x768) ![1, 0] ![1024, 768] _).toLoadRect.idx (ix2 n d))) = _
    rw [embRows_idx]
  · -- row 0: the class token plus position row 0
    obtain rfl := List.mem_singleton.mp hp
    obtain ⟨b, u, d, rfl⟩ : ∃ (b : Fin 2) (u : Fin 1) (d : Fin 768), x = ix3 b u d := ⟨x 0, x 1, x 2, eq_ix3 x⟩
    show k0_pay1 _ _ (ix3 b u d) = _
    rw [pay_cls_apply, cls_emb, result_apply, tokenAt_zero x0 _ b _ d rfl, View.ld_unit_zero (S := S1x768) zeros2]
    show FloatOps.addf _ (x2 ((Rect.unit (s := S1025x768) ![0, 0] ![1, 768] _).toLoadRect.idx (ix2 (0 : Fin 1) d))) = _
    rw [emb0_idx]

end Cert.KernelIdeal.Body

end
-- ==== Proof.KernelValue.lean ====
/-
  The kernel's result array is the position-embedding sum of its arguments.

  The grid has 32 points; point `t` stages sequences `2t, 2t + 1` of the input, the whole class-token row and the
  whole position table, and writes back block `t` of the result: sequences `2t, 2t + 1`, all 1025 rows.  The body
  leaves in that block the sum of the block's inputs (`Body.out_block`), which is the block of the whole-array sum
  because the sum at `(b, r, d)` reads the input only at sequence `b` (`PosEmbed.result_block`).  The 32 blocks
  cover the array (sequence `b` lies in block `b / 2`), so the array ends holding the sum.  The class-token row the
  region finds is the host's reshape of the `[768]` argument to one row.
-/
import proofs.«102256_j51196010168778_1_alg».proof.Proof.Gen.KernelIdeal.Value
import proofs.«102256_j51196010168778_1_alg».proof.Proof.Body
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Value Cert.KernelIdeal.Body Cert.PosEmbed

variable {F : FTy → Type} [FloatOps F]
variable (m : (ℓ : Loc nD τ sig) → Buf (Elt F) ℓ) (ρ : Dev nD → PrngReg)

/-- The three arrays as the region finds them, at their literal types. -/
abbrev inArr (c : Dev nD) : Vec F S64x1024x768 .f32 := V m c main_arg0
abbrev clsArr (c : Dev nD) : Vec F S1x768 .f32 := V m c main_v0
abbrev embArr (c : Dev nD) : Vec F S1025x768 .f32 := V m c main_arg2

/-- The sum of the arrays the region finds. -/
abbrev target (c : Dev nD) : Vec F S64x1025x768 .f32 :=
  result (inArr m c) (fun d => clsArr m c (ix2 (0 : Fin 1) d)) (embArr m c)

/-- The printed index maps over the 32 points: the input and the output move together along the sequences, and
    every other block index is 0. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0 ∧ win0_3.index t (0 : Fin 3) ≤ 31 :=
  (by decide +kernel : ∀ t : Fin grid0.N, _)

/-- Every pair of sequences is some point's block. -/
theorem idx_onto : ∀ q : Fin 32, ∃ t : Fin cfg0.N, win0_3.index t = ![q.val, 0, 0] :=
  (by decide +kernel : ∀ q : Fin 32, ∃ t : Fin grid0.N, win0_3.index t = ![q.val, 0, 0])

/-- WHAT POINT `t` WRITES BACK is block `t` of the sum of the arrays the region finds. -/
theorem flushed_eq (c : Dev nD) (t : Fin cfg0.N) :
    (dats m 0 c).flushed 3 t = ((cfg0.win 3).blk t).view.read (Elt F) (target m c) := by
  rw [flushed3_A, out_block]
  obtain ⟨e00, e01, e02, e10, e11, e20, e21, e31, e32, e30⟩ := idx_facts t
  funext j
  obtain ⟨b', r, d, rfl⟩ : ∃ (b' : Fin 2) (r : Fin 1025) (d : Fin 768), j = ix3 b' r d := ⟨j 0, j 1, j 2, eq_ix3 j⟩
  show result (iblk m c 0 t) (fun d => iblk m c 1 t (ix2 (0 : Fin 1) d)) (iblk m c 2 t) (ix3 b' r d)
    = target m c (((cfg0.win 3).blk t).view.emb (ix3 b' r d))
  -- the block's (b', r, d) is the array's (2 · block index + b', r, d)
  have hb : win0_3.index t (0 : Fin 3) * 2 + b'.val < 64 := by have := b'.isLt; omega
  have hemb : ((cfg0.win 3).blk t).view.emb (ix3 b' r d)
      = ix3 (⟨win0_3.index t (0 : Fin 3) * 2 + b'.val, hb⟩ : Fin 64) r d := by
    funext a; apply Fin.ext
    match a with
    | ⟨0, _⟩ => show win0_3.index t (0 : Fin 3) * 2 + 1 * b'.val = win0_3.index t (0 : Fin 3) * 2 + b'.val; omega
    | ⟨1, _⟩ => show win0_3.index t (1 : Fin 3) * 1025 + 1 * r.val = r.val; omega
    | ⟨2, _⟩ => show win0_3.index t (2 : Fin 3) * 768 + 1 * d.val = d.val; omega
  rw [hemb]
  -- the class-token row and the position table are staged whole
  have h1 : (fun d => iblk m c 1 t (ix2 (0 : Fin 1) d)) = fun d => clsArr m c (ix2 (0 : Fin 1) d) := by
    funext d'
    show V m c main_v0 (((cfg0.win 1).blk t).view.emb (ix2 (0 : Fin 1) d')) = V m c main_v0 (ix2 (0 : Fin 1) d')
    refine congrArg (V m c main_v0) (funext fun a => Fin.ext ?_)
    match a with
    | ⟨0, _⟩ => show win0_1.index t (0 : Fin 2) * 1 + 1 * 0 = 0; omega
    | ⟨1, _⟩ => show win0_1.index t (1 : Fin 2) * 768 + 1 * d'.val = d'.val; omega
  have h2 : (iblk m c 2 t : Vec F S1025x768 .f32) = embArr m c := by
    funext y
    show V m c main_arg2 (((cfg0.win 2).blk t).view.emb y) = V m c main_arg2 y
    refine congrArg (V m c main_arg2) (funext fun a => Fin.ext ?_)
    match a with
    | ⟨0, _⟩ => show win0_2.index t (0 : Fin 2) * 1025 + 1 * (y 0).val = (y 0).val; omega
    | ⟨1, _⟩ => show win0_2.index t (1 : Fin 2) * 768 + 1 * (y 1).val = (y 1).val; omega
  rw [h1, h2]
  -- the input block holds the two sequences the output block is written for
  refine result_block (B := 64) (B' := 2) (inArr m c) (iblk m c 0 t) _ _ ⟨_, hb⟩ b' (fun n d' => ?_) r d
  show V m c main_arg0 (((cfg0.win 0).blk t).view.emb (ix3 b' n d'))
    = V m c main_arg0 (ix3 (⟨win0_3.index t (0 : Fin 3) * 2 + b'.val, hb⟩ : Fin 64) n d')
  refine congrArg (V m c main_arg0) (funext fun a => Fin.ext ?_)
  match a with
  | ⟨0, _⟩ => show win0_0.index t (0 : Fin 3) * 2 + 1 * b'.val = win0_3.index t (0 : Fin 3) * 2 + b'.val; omega
  | ⟨1, _⟩ => show win0_0.index t (1 : Fin 3) * 1024 + 1 * n.val = n.val; omega
  | ⟨2, _⟩ => show win0_0.index t (2 : Fin 3) * 768 + 1 * d'.val = d'.val; omega

/-- An index of the result array is in point `t`'s block iff each coordinate is in the block's range on its axis. -/
theorem mem_blk (t : Fin cfg0.N) (i : S64x1025x768.Idx) :
    i ∈ ((cfg0.win 3).blk t).view.set ↔ ∀ a : Fin 3, win0_3.index t a * S2x1025x768.size a ≤ (i a).val
      ∧ (i a).val < win0_3.index t a * S2x1025x768.size a + S2x1025x768.size a := by
  show i ∈ ((View.whole main_v1).slice (win0_3.rect t)).set ↔ _
  rw [View.set_slice_whole, Rect.mem_set_unit]
  exact Iff.rfl

/-- The 32 blocks cover the result array: sequence `b` lies in the block of point `b / 2`. -/
theorem cover (i : S64x1025x768.Idx) :
    ∃ t : Fin cfg0.N, (cfg0.win 3).flush t = true ∧ i ∈ ((cfg0.win 3).blk t).view.set := by
  have hi0 : (i 0).val < 64 := (i 0).isLt
  have hi1 : (i 1).val < 1025 := (i 1).isLt
  have hi2 : (i 2).val < 768 := (i 2).isLt
  obtain ⟨t, ht⟩ := idx_onto ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 1025 ≤ (i 1).val ∧ (i 1).val < win0_3.index t (1 : Fin 3) * 1025 + 1025; omega
  | ⟨2, _⟩ => show win0_3.index t (2 : Fin 3) * 768 ≤ (i 2).val ∧ (i 2).val < win0_3.index t (2 : Fin 3) * 768 + 768; omega

/-- THE RESULT ARRAY after the run is the sum of the arrays the region finds. -/
theorem final (c : Dev nD) : (dats m 0 c).arrAt 3 cfg0.N = target m c :=
  (dats m 0 c).arrAt_eq_of_cover 3 (target m c) (fun t _ => flushed_eq m c t) cover

/-- The class-token row the region finds: the host's reshape of the `[768]` argument to `[1, 768]`, feature by
    feature the argument. -/
theorem clsArr_apply (c : Dev nD) (d : Fin 768) :
    clsArr m c (ix2 (0 : Fin 1) d) = m ((c : Thread nD τ).loc main_arg1) (ix1 d) := by
  have e : (V m c main_v0 : S1x768.Idx → Elt F .f32)
      = shapeCast S1x768 (m ((c : Thread nD τ).loc main_arg1)) shapeCasts_S768_S1x768 := by
    dsimp only [V, hostOps0]; after_results; rfl
  show V m c main_v0 (ix2 (0 : Fin 1) d) = _
  rw [e]
  exact shapeCast_a_1a_apply _ _ _ _

/-- The sum of the ARGUMENTS: what `target` is once the arrays the region finds are read back to the arguments. -/
abbrev resultOf (x : Vec F S64x1024x768 .f32) (cls : Vec F S768 .f32) (emb : Vec F S1025x768 .f32) : Vec F S64x1025x768 .f32 :=
  result x (fun d => cls (ix1 d)) emb

theorem target_eq (c : Dev nD) :
    target m c = resultOf (m ((c : Thread nD τ).loc main_arg0)) (m ((c : Thread nD τ).loc main_arg1))
      (m ((c : Thread nD τ).loc main_arg2)) := by
  have h0 : inArr m c = m ((c : Thread nD τ).loc main_arg0) := V_main_arg0 m c
  have h2 : embArr m c = m ((c : Thread nD τ).loc main_arg2) := V_main_arg2 m c
  have h1 : (fun d => clsArr m c (ix2 (0 : Fin 1) d)) = fun d => m ((c : Thread nD τ).loc main_arg1) (ix1 d) :=
    funext fun d => clsArr_apply m c d
  show result (inArr m c) (fun d => clsArr m c (ix2 (0 : Fin 1) d)) (embArr m c) = _
  rw [h0, h1, h2]

/-- THE RUN: every weakly fair execution of the kernel's program ends with the result array at the
    position-embedding sum of the arguments, the arguments unchanged. -/
theorem run : θ_run defs (onTc (τ := τ) (main (F := F))) ⟨m, fun _ => 0, ρ⟩ fun r => ∀ c : Dev nD,
      r.2.mem ((c : Thread nD τ).loc main_v1) = resultOf (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1.trans (final m c)).trans (target_eq m c), (h c).2⟩)
    (run_blocks m ρ)

end Cert.KernelIdeal.KernelValue

end
-- ==== Proof.RefValue.lean ====
/-
  The reference computes the position-embedding sum.

  The reference broadcasts the class token to one row per sequence, joins it in front of the input rows along the
  row axis, broadcasts the position table over the sequences and adds.  Read at an index `(b, r, d)`: the joined
  array holds the class token's feature `d` at row 0 and input row `r - 1` otherwise, the broadcast table holds
  position row `r`, and the sum of the two is `PosEmbed.result` at `B = 64`.
-/
import proofs.«102256_j51196010168778_1_alg».proof.Proof.Gen.ReferenceIdeal.Read
import proofs.«102256_j51196010168778_1_alg».proof.Proof.PosEmbedSpec
import proofs.«102256_j51196010168778_1_alg».proof.Proof.LibBatchRows
import Idealize.ShloMosaic.Lib.ValueIdx

noncomputable section

open Idealize.ShloMosaic Idealize.ShloMosaic.ValueIdx

namespace Cert.ReferenceIdeal.RefValue

open Cert.ReferenceIdeal Cert.ReferenceIdeal.Read Cert.PosEmbed Cert.LibBatchRows

variable {F : FTy → Type} [FloatOps F]

/-- The reference's result, as a function of its three arguments, is the position-embedding sum. -/
theorem ref_eq (x : (⟨S64x1024x768, .f32⟩ : BufTy).Contents (Elt F)) (cls : (⟨S768, .f32⟩ : BufTy).Contents (Elt F))
    (emb : (⟨S1025x768, .f32⟩ : BufTy).Contents (Elt F)) :
    val_main_v5 (F := F) x cls emb = result x (fun d => cls (ix1 d)) emb := by
  funext i
  obtain ⟨b, r, d, rfl⟩ : ∃ (b : Fin 64) (r : Fin 1025) (d : Fin 768), i = ix3 b r d := ⟨i 0, i 1, i 2, eq_ix3 i⟩
  rw [val_main_v5_apply, val_main_v4_apply, val_main_v3_apply, result_apply]
  -- the position table broadcast over the sequences, at (b, r, d), is position row r
  have hemb : idx_main_v3 (idx_main_v4 (ix3 b r d)) = ix2 r d := by
    funext a; apply Fin.ext
    match a with
    | ⟨0, _⟩ => rfl
    | ⟨1, _⟩ => rfl
  rw [hemb]
  congr 1
  -- the joined array at row r
  unfold val_main_v2
  have hr := r.isLt
  by_cases h : r.val = 0
  · rw [concatenate_rows_apply_left _ _ _ b r d (0 : Fin 1) (by rw [h]; rfl), val_main_v1_apply, val_main_v0_apply,
      tokenAt_zero _ _ b r d h]
    refine congrArg cls (funext fun a => Fin.ext ?_)
    match a with
    | ⟨0, _⟩ => rfl
  · rw [concatenate_rows_apply_right _ _ _ b r d (⟨r.val - 1, by omega⟩ : Fin 1024) (by show r.val - 1 + 1 = r.val; omega),
      tokenAt_succ _ _ b r d (⟨r.val - 1, by omega⟩ : Fin 1024) (by show r.val = r.val - 1 + 1; omega)]

end Cert.ReferenceIdeal.RefValue

end
-- ==== Proof.lean ====
/-
  The position-embedding kernel against its reference, over the extended reals.

  Both programs compute, for 64 sequences of 1024 feature rows, a class token `cls` and a table `emb` of 1025
  position rows,

      out[b, 0, d]     = cls[d]     + emb[0, d]
      out[b, r + 1, d] = x[b, r, d] + emb[r + 1, d]

  (`PosEmbed.result`, Proof/PosEmbedSpec.lean).  The kernel does it two sequences per grid point, with one store
  for row 0 and one for rows 1 … 1024 (Proof/Body.lean: what the body leaves in a block; Proof/KernelValue.lean:
  the 32 blocks cover the result array, and the class-token row the kernel is given is the host's reshape of
  `cls`).  The reference joins the broadcast class token in front of the input rows and adds the broadcast table
  (Proof/RefValue.lean).  Each entry is ONE float addition with the same left and right operand in both
  programs, so the two results are the same function of the arguments whatever the numbers are: no law of
  arithmetic is needed and the finiteness precondition is not used.  The idealization pass rewrote nothing, so
  the idealized kernel is the kernel's own text.  The three frames are the generated frame runs.
-/
import proofs.«102256_j51196010168778_1_alg».proof.Defs
import proofs.«102256_j51196010168778_1_alg».proof.Proof.Gen.Kernel
import proofs.«102256_j51196010168778_1_alg».proof.Proof.Gen.Kernel.Skeleton
import proofs.«102256_j51196010168778_1_alg».proof.Proof.Gen.Kernel.Launch
import proofs.«102256_j51196010168778_1_alg».proof.Proof.Gen.Kernel.Points
import proofs.«102256_j51196010168778_1_alg».proof.Proof.Gen.Kernel.Frame
import proofs.«102256_j51196010168778_1_alg».proof.Proof.Gen.KernelIdeal
import proofs.«102256_j51196010168778_1_alg».proof.Proof.Gen.KernelIdeal.Skeleton
import proofs.«102256_j51196010168778_1_alg».proof.Proof.Gen.KernelIdeal.Launch
import proofs.«102256_j51196010168778_1_alg».proof.Proof.Gen.KernelIdeal.Points
import proofs.«102256_j51196010168778_1_alg».proof.Proof.Gen.KernelIdeal.Frame
import proofs.«102256_j51196010168778_1_alg».proof.Proof.Gen.ReferenceIdeal
import proofs.«102256_j51196010168778_1_alg».proof.Proof.Gen.Pre_finite_inputs
import proofs.«102256_j51196010168778_1_alg».proof.Proof.Gen.KernelIdeal.Value
import proofs.«102256_j51196010168778_1_alg».proof.Proof.Gen.ReferenceIdeal.Run
import proofs.«102256_j51196010168778_1_alg».proof.Proof.Gen.ReferenceIdeal.Read
import proofs.«102256_j51196010168778_1_alg».proof.Proof.KernelValue
import proofs.«102256_j51196010168778_1_alg».proof.Proof.RefValue
import Idealize.ShloMosaic.Adequacy
import Idealize.ShloMosaic.Init

noncomputable section

namespace Cert.Proof

open Idealize.ShloMosaic Idealize.SL.Sem

/-- The kernel as printed runs, and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories that agree on the three arguments, the idealized kernel's result array and the idealized
    reference's both end at the position-embedding sum of those arguments. -/
theorem algebraic : Cert.algebraic_KernelIdeal_ReferenceIdeal := by
  intro m ρ m' ρ' _ hagree
  refine ⟨fun c => Cert.KernelIdeal.KernelValue.resultOf (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
